-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S64x64 : Shape := ⟨2, ![64, 64]⟩
abbrev S1x64 : Shape := ⟨2, ![1, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S64x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S16384x64 .f32) (main_arg1 : FVec F S64x64 .f32) (main_arg2 : FVec F S64x64 .f32) (main_arg3 : FVec F S1x64 .f32) (main_arg4 : FVec F S64x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_v13 main_v16
-- ==== Kernel.lean ====
abbrev S16384x64 : Shape := ⟨2, ![16384, 64]⟩
abbrev S64x64 : Shape := ⟨2, ![64, 64]⟩
abbrev S1x64 : Shape := ⟨2, ![1, 64]⟩
abbrev S8192x128 : Shape := ⟨2, ![8192, 128]⟩
abbrev S2048x128 : Shape := ⟨2, ![2048, 128]⟩
abbrev S64x128 : Shape := ⟨2, ![64, 128]⟩
abbrev S128x128 : Shape := ⟨2, ![128, 128]⟩

abbrev nBuf : Space → Nat
  | .hbm => 8
  | .vmem => 8
  | .smem => 0
  | _ => 0

abbrev bufTy : (tb : Table) → Fin (tcTables nBuf tb) → BufTy
  | .hbm, ⟨0, _⟩ => ⟨S16384x64, .f32⟩
  | .hbm, ⟨1, _⟩ => ⟨S64x64, .f32⟩
  | .hbm, ⟨2, _⟩ => ⟨S64x64, .f32⟩
  | .hbm, ⟨3, _⟩ => ⟨S1x64, .f32⟩
  | .hbm, ⟨4, _⟩ => ⟨S64x64, .f32⟩
  | .hbm, ⟨5, _⟩ => ⟨S8192x128, .f32⟩
  | .hbm, ⟨6, _⟩ => ⟨S8192x128, .f32⟩
  | .hbm, ⟨7, _⟩ => ⟨S16384x64, .f32⟩
  | .local _ .vmem, ⟨0, _⟩ => ⟨S2048x128, .f32⟩
  | .local _ .vmem, ⟨1, _⟩ => ⟨S2048x128, .f32⟩
  | .local _ .vmem, ⟨2, _⟩ => ⟨S64x64, .f32⟩
  | .local _ .vmem, ⟨3, _⟩ => ⟨S64x64, .f32⟩
  | .local _ .vmem, ⟨4, _⟩ => ⟨S1x64, .f32⟩
  | .local _ .vmem, ⟨5, _⟩ => ⟨S64x64, .f32⟩
  | .local _ .vmem, ⟨6, _⟩ => ⟨S2048x128, .f32⟩
  | .local _ .vmem, ⟨7, _⟩ => ⟨S2048x128, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16384x64_S8192x128 : S16384x64.ShapeCasts S8192x128
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  concatenates_S64x64_S64x64_S64x128_d1 : Shape.Concatenates [S64x64, S64x64] S64x128 1
  concatenates_S64x128_S64x128_S128x128_d0 : Shape.Concatenates [S64x128, S64x128] S128x128 0
  inb_S1x64_S1x64_0_0 : ∀ a, (![0, 0] : Fin 2 → Nat) a + S1x64.size a ≤ S1x64.size a
  h_S1x64 : 0 < S1x64.numel
  broadcasts_S1x64_S64x64 : S1x64.Broadcasts S64x64
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S8192x128_S16384x64 : S8192x128.ShapeCasts S16384x64
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S8192x128.size a
  hwx0_5 : ∀ i : grid0.Coords, EltTy.bits .f32 = 32 ∨ (Rect.block (s := S8192x128) S2048x128.size (cc0_transform_5 i) (hinb0_5 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x64 : Shape := ⟨2, ![16384, 64]⟩
abbrev S64x64 : Shape := ⟨2, ![64, 64]⟩
abbrev S1x64 : Shape := ⟨2, ![1, 64]⟩
abbrev S64x16384 : Shape := ⟨2, ![64, 16384]⟩
abbrev S_ : Shape := ⟨0, ![]⟩
abbrev S64x1 : Shape := ⟨2, ![64, 1]⟩

abbrev nBuf : Space → Nat
  | .hbm => 27
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S64x64, .f32⟩
  | .hbm, ⟨2, _⟩ => ⟨S64x64, .f32⟩
  | .hbm, ⟨3, _⟩ => ⟨S1x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x16384, .f32⟩
  | .hbm, ⟨8, _⟩ => ⟨S64x16384, .f32⟩
  | .hbm, ⟨9, _⟩ => ⟨S16384x64, .f32⟩
  | .hbm, ⟨10, _⟩ => ⟨S_, .f32⟩
  | .hbm, ⟨11, _⟩ => ⟨S16384x64, .f32⟩
  | .hbm, ⟨12, _⟩ => ⟨S16384x64, .f32⟩
  | .hbm, ⟨13, _⟩ => ⟨S64x64, .f32⟩
  | .hbm, ⟨14, _⟩ => ⟨S64x64, .f32⟩
  | .hbm, ⟨15, _⟩ => ⟨S64x16384, .f32⟩
  | .hbm, ⟨16, _⟩ => ⟨S64x16384, .f32⟩
  | .hbm, ⟨17, _⟩ => ⟨S16384x64, .f32⟩
  | .hbm, ⟨18, _⟩ => ⟨S_, .f32⟩
  | .hbm, ⟨19, _⟩ => ⟨S16384x64, .f32⟩
  | .hbm, ⟨20, _⟩ => ⟨S16384x64, .f32⟩
  | .hbm, ⟨21, _⟩ => ⟨S64x1, .f32⟩
  | .hbm, ⟨22, _⟩ => ⟨S64x64, .f32⟩
  | .hbm, ⟨23, _⟩ => ⟨S64x64, .f32⟩
  | .hbm, ⟨24, _⟩ => ⟨S64x16384, .f32⟩
  | .hbm, ⟨25, _⟩ => ⟨S64x16384, .f32⟩
  | .hbm, ⟨26, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call1_cst : Ref sig .tc := ⟨.hbm, 18, rfl⟩
abbrev main_call1_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  transposes_S64x64_S64x64_1_0 : S64x64.Transposes [1, 0] S64x64
  transposes_S16384x64_S64x16384_1_0 : S16384x64.Transposes [1, 0] S64x16384
  transposes_S64x16384_S16384x64_1_0 : S64x16384.Transposes [1, 0] S16384x64
  bcast_S_S16384x64 : S_.BroadcastsInDim S16384x64 (![] : Fin 0 → Fin S16384x64.rank)
  transposes_S1x64_S64x1_1_0 : S1x64.Transposes [1, 0] S64x1
  bcast_S64x1_S64x64_0_1 : S64x1.BroadcastsInDim S64x64 (![0, 1] : Fin 2 → Fin S64x64.rank)
  dot_S64x64_S64x16384_S64x16384_1_0_0_1_n_n_wf : DotDims.WF S64x64 S64x16384 S64x16384 [1] [0] [0] [1] [] []

variable [Facts₀]

def dot_S64x64_S64x16384_S64x16384_1_0_0_1_n_n : DotDims S64x64 S64x16384 S64x16384 where
  lhsContracting := [1]
  rhsContracting := [0]
  lhsNonContracting := [0]
  rhsNonContracting := [1]
  lhsBatch := []
  rhsBatch := []
  wf := dot_S64x64_S64x16384_S64x16384_1_0_0_1_n_n_wf

class Facts : Prop extends Facts₀ where

variable [Facts]
-- ==== Proof.RowMlp.lean ====
/-
  The mathematics of the masked three-layer perceptron, with no program in sight.

  One input row `v : Fin 64 → EReal` goes through three masked linear layers with a ReLU after the first two. A layer with
  coefficient table `C` sends `v` to `b ↦ ∑ a, C b a * v a`; the tables are `C b a = mask[b, a] * W[a, b]` for the two
  square weights and `C b a = mask[b, a] * W3[0, b]` for the single-row third weight. The result array is this row
  function applied to every row of `x` (`result`).

  The second half is about the PAIRED layout: a row of 128 lanes holds two 64-rows side by side, lane `64 * h + a` being
  entry `a` of half `h`. A product with the block-diagonal matrix `diag(D, D)` acts on each half separately, because
  every term that pairs a lane of one half with a column of the other carries a zero factor, and on the extended reals
  `z * 0 = 0` for every `z` (also at the infinities): `sum_blockdiag`. No finiteness of the inputs is needed anywhere.
-/
import Idealize.ShloMosaic.PureOps.Ideal
import Idealize.ShloMosaic.Lib.ValueIdx
import Mathlib.Algebra.BigOperators.Fin

noncomputable section

open scoped BigOperators

namespace Cert.RowMlp

open Idealize.ShloMosaic Idealize.ShloMosaic.ValueIdx

/-! ## One row through the three layers -/

/-- A linear layer on one row: entry `b` of the result is the sum over `a` of `C b a * v a`. -/
def layer (C : Fin 64 → Fin 64 → EReal) (v : Fin 64 → EReal) : Fin 64 → EReal := fun b => ∑ a : Fin 64, C b a * v a

/-- The rectifier on one row. -/
def relu (v : Fin 64 → EReal) : Fin 64 → EReal := fun b => max (v b) 0

/-- The coefficient table of a square masked weight: `mask[b, a] * W[a, b]`. -/
def coef (mask W : (⟨2, ![64, 64]⟩ : Shape).Idx → EReal) : Fin 64 → Fin 64 → EReal :=
  fun b a => mask (ix2 b a) * W (ix2 a b)

/-- The coefficient table of the single-row third weight, broadcast along the mask's columns: `mask[b, a] * W3[0, b]`. -/
def coefRow (mask : (⟨2, ![64, 64]⟩ : Shape).Idx → EReal) (W3 : (⟨2, ![1, 64]⟩ : Shape).Idx → EReal) : Fin 64 → Fin 64 → EReal :=
  fun b a => mask (ix2 b a) * W3 (ix2 (0 : Fin 1) b)

/-- One row through layer, ReLU, layer, ReLU, layer. -/
def rowOut (C1 C2 C3 : Fin 64 → Fin 64 → EReal) (v : Fin 64 → EReal) : Fin 64 → EReal :=
  layer C3 (relu (layer C2 (relu (layer C1 v))))

/-- The whole result: row `n` of the output is `rowOut` of row `n` of `x`. -/
def result (x : (⟨2, ![16384, 64]⟩ : Shape).Idx → EReal) (W1 W2 : (⟨2, ![64, 64]⟩ : Shape).Idx → EReal)
    (W3 : (⟨2, ![1, 64]⟩ : Shape).Idx → EReal) (mask : (⟨2, ![64, 64]⟩ : Shape).Idx → EReal) :
    (⟨2, ![16384, 64]⟩ : Shape).Idx → EReal :=
  fun i => rowOut (coef mask W1) (coef mask W2) (coefRow mask W3) (fun a => x (ix2 (i 0) a)) (i 1)

/-! ## The paired layout: two 64-rows in one row of 128 lanes -/

/-- Lane `64 * h + a`: entry `a` of half `h`. -/
def lane (h : Fin 2) (a : Fin 64) : Fin 128 := ⟨64 * h.val + a.val, by omega⟩
/-- Which half a lane is in. -/
def laneHi (j : Fin 128) : Fin 2 := ⟨j.val / 64, by omega⟩
/-- Where in its half a lane is. -/
def laneLo (j : Fin 128) : Fin 64 := ⟨j.val % 64, by omega⟩

theorem lane_hi_lo (j : Fin 128) : lane (laneHi j) (laneLo j) = j := Fin.ext (by simp only [lane, laneHi, laneLo]; omega)
theorem laneHi_lane (h : Fin 2) (a : Fin 64) : laneHi (lane h a) = h := Fin.ext (by simp only [lane, laneHi]; omega)
theorem laneLo_lane (h : Fin 2) (a : Fin 64) : laneLo (lane h a) = a := Fin.ext (by simp only [lane, laneLo]; omega)
theorem lane_val (h : Fin 2) (a : Fin 64) : (lane h a).val = 64 * h.val + a.val := rfl

/-- Row `2 * R + h` of the 16384-row array: half `h` of paired row `R`. -/
def rowOf (R : Fin 8192) (h : Fin 2) : Fin 16384 := ⟨2 * R.val + h.val, by omega⟩

/-- A sum over the 128 lanes is the sum over the first half plus the sum over the second. -/
theorem sum_lanes (f : Fin 128 → EReal) :
    ∑ k : Fin 128, f k = ∑ a : Fin 64, f (lane 0 a) + ∑ a : Fin 64, f (lane 1 a) := by
  have e : (∑ k : Fin 128, f k) = ∑ k : Fin (64 + 64), f k := rfl
  rw [e, Fin.sum_univ_add]
  refine congrArg₂ (· + ·) (Finset.sum_congr rfl fun a _ => congrArg f (Fin.ext ?_))
    (Finset.sum_congr rfl fun a _ => congrArg f (Fin.ext ?_))
  · simp [lane]
  · simp [lane]; omega

/-- A row times one column of `diag(D, D)`: the column is `g` on the lanes of half `h` and zero on the other half, so the
    128-term sum is the 64-term sum over half `h`. The other half's terms are `f k * 0 = 0` whatever `f k` is. -/
theorem sum_blockdiag (f col : Fin 128 → EReal) (h : Fin 2) (g : Fin 64 → EReal)
    (hcol : ∀ (h' : Fin 2) (a : Fin 64), col (lane h' a) = if h' = h then g a else 0) :
    ∑ k : Fin 128, f k * col k = ∑ a : Fin 64, f (lane h a) * g a := by
  rw [sum_lanes]
  have key : ∀ h' : Fin 2, ∑ a : Fin 64, f (lane h' a) * col (lane h' a)
      = if h' = h then ∑ a : Fin 64, f (lane h a) * g a else 0 := fun h' => by
    by_cases e : h' = h
    · subst e
      rw [if_pos rfl]
      exact Finset.sum_congr rfl fun a _ => by rw [hcol, if_pos rfl]
    · rw [if_neg e]
      exact Finset.sum_eq_zero fun a _ => by rw [hcol, if_neg e, mul_zero]
  rw [key 0, key 1]
  match h with
  | ⟨0, _⟩ => simp
  | ⟨1, _⟩ => simp

/-- An array of 128-lane rows `P` holds the family `u` of 64-rows in the paired layout. -/
def Paired {R : ℕ} (P : (⟨2, ![R, 128]⟩ : Shape).Idx → EReal) (u : Fin R → Fin 2 → Fin 64 → EReal) : Prop :=
  ∀ (r : Fin R) (h : Fin 2) (a : Fin 64), P (ix2 r (lane h a)) = u r h a

/-- A paired array is determined index by index: at `(r, j)` it reads half `laneHi j`, entry `laneLo j`. -/
theorem Paired.apply {R : ℕ} {P : (⟨2, ![R, 128]⟩ : Shape).Idx → EReal} {u : Fin R → Fin 2 → Fin 64 → EReal}
    (hP : Paired P u) (i : (⟨2, ![R, 128]⟩ : Shape).Idx) : P i = u (i 0) (laneHi (i 1)) (laneLo (i 1)) := by
  obtain ⟨r, j, rfl⟩ : ∃ (r : Fin R) (j : Fin 128), i = ix2 r j := ⟨i 0, i 1, eq_ix2 i⟩
  show P (ix2 r j) = u r (laneHi j) (laneLo j)
  have := hP r (laneHi j) (laneLo j)
  rwa [lane_hi_lo] at this

/-- The ReLU acts lane by lane, so it keeps the paired layout. -/
theorem Paired.relu {R : ℕ} {P Q : (⟨2, ![R, 128]⟩ : Shape).Idx → EReal} {u : Fin R → Fin 2 → Fin 64 → EReal}
    (hP : Paired P u) (hQ : ∀ i, Q i = max (P i) 0) : Paired Q (fun r h => RowMlp.relu (u r h)) :=
  fun r h a => by rw [hQ, hP r h a]; rfl

/-- A product with `diag(D, D)` keeps the paired layout and applies the layer with table `C b a = D[a, b]` to each half:
    `Q` is the product (`hQ`: each entry the 128-term sum), `B` the block-diagonal matrix (`hB`). -/
theorem Paired.layer {R : ℕ} {P Q : (⟨2, ![R, 128]⟩ : Shape).Idx → EReal} {u : Fin R → Fin 2 → Fin 64 → EReal}
    (hP : Paired P u) (B : Fin 128 → Fin 128 → EReal) (C : Fin 64 → Fin 64 → EReal)
    (hB : ∀ (h' : Fin 2) (a : Fin 64) (h : Fin 2) (b : Fin 64), B (lane h' a) (lane h b) = if h' = h then C b a else 0)
    (hQ : ∀ (r : Fin R) (j : Fin 128), Q (ix2 r j) = ∑ k : Fin 128, P (ix2 r k) * B k j) :
    Paired Q (fun r h => RowMlp.layer C (u r h)) := fun r h b => by
  rw [hQ, sum_blockdiag (fun k => P (ix2 r k)) (fun k => B k (lane h b)) h (fun a => C b a) (fun h' a => hB h' a h b)]
  exact Finset.sum_congr rfl fun a _ => by rw [hP r h a, mul_comm]

end Cert.RowMlp

end
-- ==== Proof.PairedBody.lean ====
/-
  The kernel body's arithmetic, read at an index.

  The body transposes the mask, multiplies it entry by entry with each weight (the single-row third weight broadcast
  along the rows first), and lays each product `D` out twice on the diagonal of a 128 × 128 matrix, zeros elsewhere:
  `diag(D, D)`, built by concatenating `[D, 0]` and `[0, D]` along the columns and the two results along the rows.
  The input block has 128 lanes per row: two 64-entry rows of `x` side by side. Each of the three products of a
  [2048, 128] activation with a `diag(D, D)`, into a zero accumulator, is at entry `(r, j)` the 128-term sum
  `∑ k, H[r, k] * diag(D, D)[k, j]`; the terms whose lane `k` lies in the other half than column `j` have a zero factor,
  so each half of a row goes through `RowMlp.layer` with table `C b a = D[a, b]` on its own (`RowMlp.Paired.layer`). With
  `D[a, b] = mask[b, a] * W[a, b]` that table is `RowMlp.coef mask W`. The maximum with a splat zero is `RowMlp.relu`
  lane by lane. So the stored value holds, in the paired layout, `RowMlp.rowOut` of each half row of the block.
-/
import proofs.«134851_g27573690040596_cont_9to1_2209_3_alg».proof.Proof.Gen.KernelIdeal.Skeleton
import proofs.«134851_g27573690040596_cont_9to1_2209_3_alg».proof.Proof.RowMlp
import Idealize.ShloMosaic.Lib.Pipeline.Value
import Idealize.ShloMosaic.Lib.ValueIdx
import Idealize.ShloMosaic.PureOps.Ideal.Laws

noncomputable section

open scoped BigOperators

namespace Cert.PairedBody

open Cert.KernelIdeal Cert.KernelIdeal.Gen Cert.RowMlp
open Idealize.ShloMosaic Idealize.ShloMosaic.ValueIdx

/-! ## The body's intermediate values, named -/

section Vocabulary
variable {F : FTy → Type} [FloatOps F]

/-- The transposed mask. -/
def maskT (v0 : Vec F S64x64 .f32) : FVec F S64x64 .f32 := transpose S64x64 [1, 0] v0 transposes_S64x64_p1_0_S64x64
/-- The 64 × 64 zero block. -/
def zero64 : FVec F S64x64 .f32 := broadcast S64x64 (Scalar.ofBits .f32 0x00000000#32)
/-- `diag(D, D)`: `[D, 0]` over `[0, D]`. -/
def bdiag (D : FVec F S64x64 .f32) : FVec F S128x128 .f32 :=
  concatenate S128x128 0
    [⟨S64x128, concatenate S64x128 1 [⟨S64x64, D⟩, ⟨S64x64, zero64⟩] concatenates_S64x64_S64x64_S64x128_d1⟩,
     ⟨S64x128, concatenate S64x128 1 [⟨S64x64, zero64⟩, ⟨S64x64, D⟩] concatenates_S64x64_S64x64_S64x128_d1⟩]
    concatenates_S64x128_S64x128_S128x128_d0
/-- The product of a [2048, 128] activation with a 128 × 128 matrix, into a zero accumulator. -/
def mm (H : FVec F S2048x128 .f32) (B : FVec F S128x128 .f32) : FVec F S2048x128 .f32 :=
  matmul dot_S2048x128_S128x128_S2048x128_1_0_0_1_n_n none H B (constant S2048x128 .f32 0x00000000#32)
/-- The maximum with a splat zero. -/
def relu0 (H : FVec F S2048x128 .f32) : FVec F S2048x128 .f32 :=
  maximumf H (broadcast S2048x128 (Scalar.ofBits .f32 0x00000000#32))

/-- The stored value in these names: three products with a ReLU after the first two. -/
theorem pay_eq (v0 v3 v8 : Vec F S64x64 .f32) (v13 : Vec F S1x64 .f32) (v19 : Vec F S2048x128 .f32) :
    k0_pay1 v0 v3 v8 v13 v19
      = mm (relu0 (mm (relu0 (mm (shapeCast S2048x128 v19 shapeCasts_S2048x128_S2048x128) (bdiag (mulf (maskT v0) v3))))
          (bdiag (mulf (maskT v0) v8))))
        (bdiag (mulf (maskT v0) (broadcastTo S64x64 v13 broadcasts_S1x64_S64x64))) := rfl

end Vocabulary

/-! ## Each of them at an index, on the extended reals -/

theorem zero64_apply (i : S64x64.Idx) : zero64 (F := Ideal) i = (0 : EReal) := by
  show Ideal.ofBits .f32 0x00000000#32 = 0
  exact Ideal.ofBits_zero_f32

theorem relu0_apply (H : FVec Ideal S2048x128 .f32) (i : S2048x128.Idx) : relu0 H i = max (H i) (0 : EReal) := by
  show max (H i) (Ideal.ofBits .f32 0x00000000#32) = _
  rw [Ideal.ofBits_zero_f32]

/-- The transposed mask at `[a, b]` is the mask at `[b, a]`. -/
theorem maskT_apply (v0 : Vec Ideal S64x64 .f32) (a b : Fin 64) : maskT v0 (ix2 a b) = v0 (ix2 b a) :=
  transpose_apply [1, 0] v0 transposes_S64x64_p1_0_S64x64 (ix2 a b) (ix2 b a) (fun d => match d with
    | ⟨0, _⟩ => rfl
    | ⟨1, _⟩ => rfl)

/-- The single-row weight broadcast along the rows: entry `[a, b]` is the row's entry `b`. -/
theorem rowBcast_apply (v13 : Vec Ideal S1x64 .f32) (a b : Fin 64) :
    broadcastTo S64x64 v13 broadcasts_S1x64_S64x64 (ix2 a b) = v13 (ix2 (0 : Fin 1) b) :=
  broadcastTo_apply v13 broadcasts_S1x64_S64x64 (ix2 a b) (ix2 (0 : Fin 1) b) (fun d => match d with
    | ⟨0, _⟩ => by show (0 : Nat) = if (1 : Nat) = 1 then 0 else a.val; rw [if_pos rfl]
    | ⟨1, _⟩ => by show b.val = if (64 : Nat) = 1 then 0 else b.val; rw [if_neg (by decide)])

/-! ### The two concatenations -/

section Cat
variable {α : Type}

/-- `[X, Y]` along the columns, at a column of the first half. -/
theorem catCols_left (X Y : S64x64.Idx → α) (a : Fin 64) (q : Fin 128) (b : Fin 64) (hq : q.val = b.val) :
    concatenate S64x128 1 [⟨S64x64, X⟩, ⟨S64x64, Y⟩] concatenates_S64x64_S64x64_S64x128_d1 (ix2 a q) = X (ix2 a b) :=
  concatenate_pair_apply_left (1 : Fin S64x128.rank) X Y concatenates_S64x64_S64x64_S64x128_d1 (ix2 a q) rfl (ix2 a b)
    (fun d => match d with
      | ⟨0, _⟩ => rfl
      | ⟨1, _⟩ => hq.symm)

/-- `[X, Y]` along the columns, at a column of the second half. -/
theorem catCols_right (X Y : S64x64.Idx → α) (a : Fin 64) (q : Fin 128) (b : Fin 64) (hq : q.val = 64 + b.val) :
    concatenate S64x128 1 [⟨S64x64, X⟩, ⟨S64x64, Y⟩] concatenates_S64x64_S64x64_S64x128_d1 (ix2 a q) = Y (ix2 a b) :=
  concatenate_pair_apply_right (1 : Fin S64x128.rank) X Y concatenates_S64x64_S64x64_S64x128_d1 (ix2 a q) rfl rfl (ix2 a b)
    (fun d hd => match d, hd with
      | ⟨0, _⟩, _ => rfl
      | ⟨1, _⟩, hd => (hd rfl).elim)
    (by show b.val + 64 = q.val; omega)

/-- `X` over `Y` along the rows, at a row of the first half. -/
theorem catRows_left (X Y : S64x128.Idx → α) (p : Fin 128) (a : Fin 64) (q : Fin 128) (hp : p.val = a.val) :
    concatenate S128x128 0 [⟨S64x128, X⟩, ⟨S64x128, Y⟩] concatenates_S64x128_S64x128_S128x128_d0 (ix2 p q) = X (ix2 a q) :=
  concatenate_pair_apply_left (0 : Fin S128x128.rank) X Y concatenates_S64x128_S64x128_S128x128_d0 (ix2 p q) rfl (ix2 a q)
    (fun d => match d with
      | ⟨0, _⟩ => hp.symm
      | ⟨1, _⟩ => rfl)

/-- `X` over `Y` along the rows, at a row of the second half. -/
theorem catRows_right (X Y : S64x128.Idx → α) (p : Fin 128) (a : Fin 64) (q : Fin 128) (hp : p.val = 64 + a.val) :
    concatenate S128x128 0 [⟨S64x128, X⟩, ⟨S64x128, Y⟩] concatenates_S64x128_S64x128_S128x128_d0 (ix2 p q) = Y (ix2 a q) :=
  concatenate_pair_apply_right (0 : Fin S128x128.rank) X Y concatenates_S64x128_S64x128_S128x128_d0 (ix2 p q) rfl rfl (ix2 a q)
    (fun d hd => match d, hd with
      | ⟨0, _⟩, hd => (hd rfl).elim
      | ⟨1, _⟩, _ => rfl)
    (by show a.val + 64 = p.val; omega)

end Cat

/-! ### `diag(D, D)` at an entry, by the halves its row and column lie in -/

theorem bdiag_00 (D : FVec Ideal S64x64 .f32) (p q : Fin 128) (a b : Fin 64) (hp : p.val = a.val) (hq : q.val = b.val) :
    bdiag D (ix2 p q) = D (ix2 a b) := by
  unfold bdiag
  rw [catRows_left _ _ p a q hp, catCols_left _ _ a q b hq]
theorem bdiag_01 (D : FVec Ideal S64x64 .f32) (p q : Fin 128) (a b : Fin 64) (hp : p.val = a.val) (hq : q.val = 64 + b.val) :
    bdiag D (ix2 p q) = (0 : EReal) := by
  unfold bdiag
  rw [catRows_left _ _ p a q hp, catCols_right _ _ a q b hq, zero64_apply]
theorem bdiag_10 (D : FVec Ideal S64x64 .f32) (p q : Fin 128) (a b : Fin 64) (hp : p.val = 64 + a.val) (hq : q.val = b.val) :
    bdiag D (ix2 p q) = (0 : EReal) := by
  unfold bdiag
  rw [catRows_right _ _ p a q hp, catCols_left _ _ a q b hq, zero64_apply]
theorem bdiag_11 (D : FVec Ideal S64x64 .f32) (p q : Fin 128) (a b : Fin 64) (hp : p.val = 64 + a.val) (hq : q.val = 64 + b.val) :
    bdiag D (ix2 p q) = D (ix2 a b) := by
  unfold bdiag
  rw [catRows_right _ _ p a q hp, catCols_right _ _ a q b hq]

/-- `diag(D, D)` at row lane `(h', a)` and column lane `(h, b)`: `D[a, b]` when the halves agree, zero otherwise. -/
theorem bdiag_apply (D : FVec Ideal S64x64 .f32) (h' : Fin 2) (a : Fin 64) (h : Fin 2) (b : Fin 64) :
    bdiag D (ix2 (lane h' a) (lane h b)) = if h' = h then D (ix2 a b) else (0 : EReal) := by
  have two : ∀ x : Fin 2, x = 0 ∨ x = 1 := by decide
  rcases two h' with rfl | rfl <;> rcases two h with rfl | rfl
  · rw [if_pos rfl]; exact bdiag_00 D _ _ a b (by simp [lane]) (by simp [lane])
  · rw [if_neg (by decide)]; exact bdiag_01 D _ _ a b (by simp [lane]) (by simp [lane])
  · rw [if_neg (by decide)]; exact bdiag_10 D _ _ a b (by simp [lane]) (by simp [lane])
  · rw [if_pos rfl]; exact bdiag_11 D _ _ a b (by simp [lane]) (by simp [lane])

/-! ### The product at an entry: the sum over the 128 lanes -/

theorem lhs_mm_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs_mm_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhs_mm_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhs_mm_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- Entry `(r, j)` of the product is `∑ k, H[r, k] * B[k, j]` over the 128 lanes. -/
theorem mm_apply (H : FVec Ideal S2048x128 .f32) (B : FVec Ideal S128x128 .f32) (r : Fin 2048) (j : Fin 128) :
    mm H B (ix2 r j) = ∑ k : Fin 128, H (ix2 r k) * B (ix2 k j) := by
  unfold mm
  simp only [matmul]
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 r j) ((contrEquiv1 dot_S2048x128_S128x128_S2048x128_1_0_0_1_n_n 128 rfl rfl).symm k) = ix2 r k := funext fun a => Fin.ext (by
    match a with
    | ⟨0, _⟩ => exact lhs_mm_0 _ _
    | ⟨1, _⟩ => exact (lhs_mm_1 _ _).trans hk)
  have er : dot_S2048x128_S128x128_S2048x128_1_0_0_1_n_n.rhsIdx (ix2 r j) ((contrEquiv1 dot_S2048x128_S128x128_S2048x128_1_0_0_1_n_n 128 rfl rfl).symm k) = ix2 k j := funext fun a => Fin.ext (by
    match a with
    | ⟨0, _⟩ => exact (rhs_mm_0 _ _).trans hk
    | ⟨1, _⟩ => exact rhs_mm_1 _ _)
  rw [el, er]

/-! ## The stored value, in the paired layout -/

/-- What the body stores: in the paired layout, `rowOut` of each half row of the loaded block `v19`, with the tables of
    the loaded mask `v0` and weights `v3`, `v8`, `v13`. -/
theorem body_paired (v0 v3 v8 : Vec Ideal S64x64 .f32) (v13 : Vec Ideal S1x64 .f32) (v19 : Vec Ideal S2048x128 .f32) :
    Paired (R := 2048) (k0_pay1 v0 v3 v8 v13 v19)
      (fun r h => rowOut (coef v0 v3) (coef v0 v8) (coefRow v0 v13) (fun a => v19 (ix2 r (lane h a)))) := by
  rw [pay_eq]
  have hX : Paired (R := 2048) (shapeCast S2048x128 v19 shapeCasts_S2048x128_S2048x128) (fun r h a => v19 (ix2 r (lane h a))) := by
    rw [shapeCast_self]; exact fun _ _ _ => rfl
  have hB1 : ∀ (h' : Fin 2) (a : Fin 64) (h : Fin 2) (b : Fin 64),
      bdiag (mulf (maskT v0) v3) (ix2 (lane h' a) (lane h b)) = if h' = h then coef v0 v3 b a else 0 := fun h' a h b => by
    rw [bdiag_apply, mulf_apply, maskT_apply]; rfl
  have hB2 : ∀ (h' : Fin 2) (a : Fin 64) (h : Fin 2) (b : Fin 64),
      bdiag (mulf (maskT v0) v8) (ix2 (lane h' a) (lane h b)) = if h' = h then coef v0 v8 b a else 0 := fun h' a h b => by
    rw [bdiag_apply, mulf_apply, maskT_apply]; rfl
  have hB3 : ∀ (h' : Fin 2) (a : Fin 64) (h : Fin 2) (b : Fin 64),
      bdiag (mulf (maskT v0) (broadcastTo S64x64 v13 broadcasts_S1x64_S64x64)) (ix2 (lane h' a) (lane h b))
        = if h' = h then coefRow v0 v13 b a else 0 := fun h' a h b => by
    rw [bdiag_apply, mulf_apply, maskT_apply, rowBcast_apply]; rfl
  have h21 := hX.layer (Q := mm _ (bdiag (mulf (maskT v0) v3))) (fun k j => bdiag (mulf (maskT v0) v3) (ix2 k j)) (coef v0 v3) hB1
    (fun r j => mm_apply _ _ r j)
  have h23 := h21.relu (Q := relu0 (F := Ideal) (mm _ _)) (relu0_apply _)
  have h24 := h23.layer (Q := mm _ (bdiag (mulf (maskT v0) v8))) (fun k j => bdiag (mulf (maskT v0) v8) (ix2 k j)) (coef v0 v8) hB2
    (fun r j => mm_apply _ _ r j)
  have h26 := h24.relu (Q := relu0 (F := Ideal) (mm _ _)) (relu0_apply _)
  exact h26.layer (Q := mm _ (bdiag (mulf (maskT v0) (broadcastTo S64x64 v13 broadcasts_S1x64_S64x64))))
    (fun k j => bdiag (mulf (maskT v0) (broadcastTo S64x64 v13 broadcasts_S1x64_S64x64)) (ix2 k j)) (coefRow v0 v13) hB3
    (fun r j => mm_apply _ _ r j)

end Cert.PairedBody

end
-- ==== Proof.KernelBlocks.lean ====
/-
  The arrays the region finds and the blocks its four grid points take from them.

  Before the region the host reshapes `x` to the paired [8192, 128] layout (`xs`). Point `t` of the grid takes paired
  rows `2048 t … 2048 t + 2047` of it (`xblk_apply`) and, at every point, the two square weights, the single-row weight
  and the mask whole (`w1blk`, `w2blk`, `w3blk`, `mkblk`): their block index is constantly zero and the block is the
  whole array. `pairedOut` is the function the output array will be shown to hold: in the paired layout,
  `RowMlp.rowOut` of each half row of `xs`.
-/
import proofs.«134851_g27573690040596_cont_9to1_2209_3_alg».proof.Proof.Gen.KernelIdeal.Frame
import proofs.«134851_g27573690040596_cont_9to1_2209_3_alg».proof.Proof.PairedBody
import Idealize.ShloMosaic.Lib.Pipeline.Value
import Idealize.ShloMosaic.Lib.Tactic

set_option maxRecDepth 16384

noncomputable section

open scoped BigOperators

namespace Cert.KernelBlocks

open Cert.KernelIdeal Cert.KernelIdeal.Gen Cert.RowMlp Cert.PairedBody
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays as the region finds them -/

/-- `x` in the paired layout. -/
abbrev xs (c : Dev nD) : Vec Ideal S8192x128 .f32 := V m c main_v0
abbrev w1 (c : Dev nD) : Vec Ideal S64x64 .f32 := V m c main_arg1
abbrev w2 (c : Dev nD) : Vec Ideal S64x64 .f32 := V m c main_arg2
abbrev w3 (c : Dev nD) : Vec Ideal S1x64 .f32 := V m c main_arg3
abbrev mk (c : Dev nD) : Vec Ideal S64x64 .f32 := V m c main_arg4

/-- The output array in the paired layout, at paired row `R` and lane `j`. -/
def pairedAt (c : Dev nD) (R : Fin 8192) (j : Fin 128) : EReal :=
  rowOut (coef (mk m c) (w1 m c)) (coef (mk m c) (w2 m c)) (coefRow (mk m c) (w3 m c))
    (fun a => xs m c (ix2 R (lane (laneHi j) a))) (laneLo j)

/-- The output array in the paired layout. -/
def pairedOut (c : Dev nD) : Vec Ideal S8192x128 .f32 := fun i => pairedAt m c (i 0) (i 1)

/-! ## The printed index maps, decided over the four points -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Paired row `2048 t + r`: row `r` of point `t`'s block. -/
def rowAt (t : Fin cfg0.N) (r : Fin 2048) : Fin 8192 :=
  ⟨2048 * t.val + r.val, by have h : t.val < cfg0.N := t.isLt; have hN : cfg0.N = 4 := N_0; omega⟩

/-! ## Each input block, read off its array -/

/-- Point `t`'s block of the paired `x` is its rows `2048 t …`. -/
theorem xblk_apply (c : Dev nD) (t : Fin cfg0.N) (r : Fin 2048) (k : Fin 128) :
    (iblk m c 0 t : Vec Ideal S2048x128 .f32) (ix2 r k) = xs m c (ix2 (rowAt t r) k) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 2048 + 1 * r.val = 2048 * t.val + r.val; rw [e0]; omega
  | ⟨1, _⟩ => show win0_0.index t (1 : Fin 2) * 128 + 1 * k.val = k.val; rw [e1]; omega

/-- The first weight's block is the whole weight, at every point. -/
theorem w1blk (c : Dev nD) (t : Fin cfg0.N) : (iblk m c 1 t : Vec Ideal S64x64 .f32) = w1 m c := by
  obtain ⟨-, -, e0, e1, -⟩ := idx_facts t
  funext y
  unfold iblk
  rw [View.read_apply]
  show V m c main_arg1 _ = V m c main_arg1 _
  congr 1
  funext a
  apply Fin.ext
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega

/-- The second weight's. -/
theorem w2blk (c : Dev nD) (t : Fin cfg0.N) : (iblk m c 2 t : Vec Ideal S64x64 .f32) = w2 m c := by
  obtain ⟨-, -, -, -, e0, e1, -⟩ := idx_facts t
  funext y
  unfold iblk
  rw [View.read_apply]
  show V m c main_arg2 _ = V m c main_arg2 _
  congr 1
  funext a
  apply Fin.ext
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- The third weight's. -/
theorem w3blk (c : Dev nD) (t : Fin cfg0.N) : (iblk m c 3 t : Vec Ideal S1x64 .f32) = w3 m c := by
  obtain ⟨-, -, -, -, -, -, e0, e1, -⟩ := idx_facts t
  funext y
  unfold iblk
  rw [View.read_apply]
  show V m c main_arg3 _ = V m c main_arg3 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- The mask's. -/
theorem mkblk (c : Dev nD) (t : Fin cfg0.N) : (iblk m c 4 t : Vec Ideal S64x64 .f32) = mk m c := by
  obtain ⟨-, -, -, -, -, -, -, -, e0, e1, -⟩ := idx_facts t
  funext y
  unfold iblk
  rw [View.read_apply]
  show V m c main_arg4 _ = V m c main_arg4 _
  congr 1
  funext a
  apply Fin.ext
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

end Cert.KernelBlocks

end
-- ==== Proof.PairReshape.lean ====
/-
  The two reshapes around the kernel, read at an index.

  A row-major reshape of a [16384, 64] array to [8192, 128] puts rows `2R` and `2R + 1` side by side in row `R`: lane
  `64 * h + a` of row `R` is entry `a` of row `2R + h`, since `(2R + h) * 64 + a = R * 128 + (64 * h + a)`. The reshape back
  reads entry `b` of row `n` from lane `64 * (n % 2) + b` of row `n / 2`.
-/
import proofs.«134851_g27573690040596_cont_9to1_2209_3_alg».proof.Proof.RowMlp
import Idealize.ShloMosaic.Lib.Pipeline.Value

noncomputable section

namespace Cert.RowMlp

open Idealize.ShloMosaic Idealize.ShloMosaic.ValueIdx

/-- The paired row that holds row `n`. -/
def rowHalf (n : Fin 16384) : Fin 8192 := ⟨n.val / 2, by omega⟩
/-- Which half of it. -/
def rowPar (n : Fin 16384) : Fin 2 := ⟨n.val % 2, by omega⟩

theorem rowOf_half_par (n : Fin 16384) : rowOf (rowHalf n) (rowPar n) = n :=
  Fin.ext (by simp only [rowOf, rowHalf, rowPar]; omega)

variable {α : Type}

/-- The reshape to the paired layout at `(R, lane h a)` is the array at `(2R + h, a)`. -/
theorem pairRows_apply (x : (⟨2, ![16384, 64]⟩ : Shape).Idx → α)
    (hc : (⟨2, ![16384, 64]⟩ : Shape).ShapeCasts ⟨2, ![8192, 128]⟩) (R : Fin 8192) (h : Fin 2) (a : Fin 64) :
    shapeCast (⟨2, ![8192, 128]⟩ : Shape) x hc (ix2 R (lane h a)) = x (ix2 (rowOf R h) a) :=
  shapeCast_apply x hc (ix2 R (lane h a)) (ix2 (rowOf R h) a) (by
    rw [Shape.rowMajor_val_two, Shape.rowMajor_val_two]
    show (rowOf R h).val * 64 + a.val = R.val * 128 + (lane h a).val
    simp only [rowOf, lane]; omega)

/-- The reshape back at `(n, b)` is the paired array at `(n / 2, lane (n % 2) b)`. -/
theorem unpairRows_apply (y : (⟨2, ![8192, 128]⟩ : Shape).Idx → α)
    (hc : (⟨2, ![8192, 128]⟩ : Shape).ShapeCasts ⟨2, ![16384, 64]⟩) (n : Fin 16384) (b : Fin 64) :
    shapeCast (⟨2, ![16384, 64]⟩ : Shape) y hc (ix2 n b) = y (ix2 (rowHalf n) (lane (rowPar n) b)) :=
  shapeCast_apply y hc (ix2 n b) (ix2 (rowHalf n) (lane (rowPar n) b)) (by
    rw [Shape.rowMajor_val_two, Shape.rowMajor_val_two]
    show (rowHalf n).val * 128 + (lane (rowPar n) b).val = n.val * 64 + b.val
    simp only [rowHalf, rowPar, lane]; omega)

end Cert.RowMlp

end
-- ==== Proof.KernelArray.lean ====
/-
  The kernel's run, read: the result array is `RowMlp.result` of the argument arrays.

  The region's four grid points each take 2048 paired rows, the weights and the mask whole, and store the body's value
  (`PairedBody.body_paired`: in the paired layout, `RowMlp.rowOut` of each half row of the block). Rows are independent,
  so point `t`'s block is rows `2048 t … 2048 t + 2047` of the one whole-array function `KernelBlocks.pairedOut`, and the
  four blocks tile the array (row `R` lies in block `R / 2048`). After the region the host reshapes back; entry `(n, b)`
  reads paired row `n / 2`, half `n % 2`, which by the reshape before the region is row `n` of `x` again.
-/
import proofs.«134851_g27573690040596_cont_9to1_2209_3_alg».proof.Proof.Gen.KernelIdeal.Frame
import proofs.«134851_g27573690040596_cont_9to1_2209_3_alg».proof.Proof.KernelBlocks
import proofs.«134851_g27573690040596_cont_9to1_2209_3_alg».proof.Proof.PairReshape
import Idealize.ShloMosaic.Lib.Pipeline.Value
import Idealize.ShloMosaic.Lib.StableHlo.Run
import Idealize.ShloMosaic.Lib.Tactic

set_option maxRecDepth 16384

noncomputable section

open scoped BigOperators

namespace Cert.KernelArray

open Cert.KernelIdeal Cert.KernelIdeal.Gen Cert.RowMlp Cert.PairedBody Cert.KernelBlocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What a point writes back, and the array after the region -/

/-- Point `t` writes back block `t` of `pairedOut`. -/
theorem flushed_eq (c : Dev nD) (t : Fin cfg0.N) :
    (dats m 0 c).flushed 5 t = ((cfg0.win 5).blk t).view.read (Elt Ideal) (pairedOut m c) := by
  show (cfg0.win 5).cut (grid0.coords t) ((dats m 0 c).after 5 t) = _
  rw [after0_5]
  unfold out0_5
  rw [View.canon_unit_zero hz]
  simp only [View.ld_unit_zero (S := S2048x128) hz, View.ld_unit_zero (S := S64x64) hz, View.ld_unit_zero (S := S1x64) hz]
  rw [w1blk, w2blk, w3blk, mkblk]
  obtain ⟨-, -, -, -, -, -, -, -, -, -, e0, e1⟩ := idx_facts t
  funext y
  obtain ⟨r, j, rfl⟩ : ∃ (r : Fin 2048) (j : Fin 128), y = ix2 r j := ⟨y 0, y 1, eq_ix2 y⟩
  have e5 : ((cfg0.win 5).blk t).view.emb (ix2 r j) = (ix2 (rowAt t r) j : S8192x128.Idx) := by
    funext a
    apply Fin.ext
    match a with
    | ⟨0, _⟩ => show win0_5.index t (0 : Fin 2) * 2048 + 1 * r.val = 2048 * t.val + r.val; rw [e0]; omega
    | ⟨1, _⟩ => show win0_5.index t (1 : Fin 2) * 128 + 1 * j.val = j.val; rw [e1]; omega
  show k0_pay1 (mk m c) (w1 m c) (w2 m c) (w3 m c) (iblk m c 0 t) (ix2 r j) = pairedOut m c (((cfg0.win 5).blk t).view.emb (ix2 r j))
  rw [e5]
  refine ((body_paired (mk m c) (w1 m c) (w2 m c) (w3 m c) (iblk m c 0 t)).apply (ix2 r j)).trans ?_
  have hv : (fun a => (iblk m c 0 t : Vec Ideal S2048x128 .f32) (ix2 r (lane (laneHi j) a)))
      = fun a => xs m c (ix2 (rowAt t r) (lane (laneHi j) a)) :=
    funext fun a => xblk_apply m c t r _
  exact congrArg (fun v => rowOut (coef (mk m c) (w1 m c)) (coef (mk m c) (w2 m c)) (coefRow (mk m c) (w3 m c)) v (laneLo j)) hv

/-- An index of the output array is in point `t`'s block iff each coordinate is in the block's range on its axis. -/
theorem mem_blk (t : Fin cfg0.N) (i : S8192x128.Idx) :
    i ∈ ((cfg0.win 5).blk t).view.set ↔ ∀ a : Fin 2, win0_5.index t a * S2048x128.size a ≤ (i a).val ∧ (i a).val < win0_5.index t a * S2048x128.size a + S2048x128.size a := by
  show i ∈ ((View.whole main_v1).slice (win0_5.rect t)).set ↔ _
  rw [View.set_slice_whole, Rect.mem_set_unit]
  exact Iff.rfl

/-- The four blocks tile the array, so after the region it holds `pairedOut`. -/
theorem final (c : Dev nD) : (dats m 0 c).arrAt 5 cfg0.N = pairedOut m c :=
  (dats m 0 c).arrAt_eq_of_cover 5 (pairedOut m c) (fun t _ => flushed_eq m c t) fun i => by
    have h0 : (i 0).val < 8192 := (i 0).isLt
    have h1 : (i 1).val < 128 := (i 1).isLt
    have hN : cfg0.N = 4 := N_0
    have ht : (i 0).val / 2048 < cfg0.N := by rw [hN]; omega
    obtain ⟨-, -, -, -, -, -, -, -, -, -, e0, e1⟩ := idx_facts ⟨(i 0).val / 2048, ht⟩
    have e0' : win0_5.index ⟨(i 0).val / 2048, ht⟩ (0 : Fin 2) = (i 0).val / 2048 := e0
    refine ⟨⟨(i 0).val / 2048, ht⟩, flush0_5 _, ?_⟩
    rw [mem_blk]
    intro a
    match a with
    | ⟨0, _⟩ =>
      show win0_5.index ⟨(i 0).val / 2048, ht⟩ (0 : Fin 2) * 2048 ≤ (i 0).val ∧ (i 0).val < win0_5.index ⟨(i 0).val / 2048, ht⟩ (0 : Fin 2) * 2048 + 2048
      rw [e0']; omega
    | ⟨1, _⟩ =>
      show win0_5.index ⟨(i 0).val / 2048, ht⟩ (1 : Fin 2) * 128 ≤ (i 1).val ∧ (i 1).val < win0_5.index ⟨(i 0).val / 2048, ht⟩ (1 : Fin 2) * 128 + 128
      rw [e1]; omega

/-! ## The host reshapes before and after the region -/

/-- The region finds `x` reshaped to the paired layout. -/
theorem xs_eq (c : Dev nD) :
    (xs m c : S8192x128.Idx → EReal) = shapeCast S8192x128 (m ((c.tc : Thread nD τ).loc main_arg0)) shapeCasts_S16384x64_S8192x128 := by
  show StableHlo.after hostOps0 (fun b => m (c, b)) (Proc.devRef .tc main_v0) = _
  after_results
  rfl

/-- The program's result is the output array reshaped back. -/
theorem tail_eq (c : Dev nD) :
    (Pipeline.afterTail₀ cfgs (dats m) 0 (V0 m) [hostOps1] c main_v2 : S16384x64.Idx → EReal)
      = shapeCast S16384x64 (pairedOut m c) shapeCasts_S8192x128_S16384x64 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = pairedOut m c :=
    (Pipeline.withArrays_arr spec0 launch0.win.arr_inj c _ _ 5).trans (final m c)
  rw [hw]
  rfl

/-- The program's result is `RowMlp.result` of the argument arrays. -/
theorem out_eq (c : Dev nD) :
    (Pipeline.afterTail₀ cfgs (dats m) 0 (V0 m) [hostOps1] c main_v2 : S16384x64.Idx → EReal)
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [tail_eq]
  funext i
  obtain ⟨n, b, rfl⟩ : ∃ (n : Fin 16384) (b : Fin 64), i = ix2 n b := ⟨i 0, i 1, eq_ix2 i⟩
  rw [unpairRows_apply]
  have hx : (fun a => xs m c (ix2 (rowHalf n) (lane (rowPar n) a)))
      = fun a => ((m ((c.tc : Thread nD τ).loc main_arg0)) : S16384x64.Idx → EReal) (ix2 n a) := funext fun a => by
    rw [xs_eq, pairRows_apply, rowOf_half_par]
  have e1 : w1 m c = (m ((c.tc : Thread nD τ).loc main_arg1)) := V_main_arg1 m c
  have e2 : w2 m c = (m ((c.tc : Thread nD τ).loc main_arg2)) := V_main_arg2 m c
  have e3 : w3 m c = (m ((c.tc : Thread nD τ).loc main_arg3)) := V_main_arg3 m c
  have e4 : mk m c = (m ((c.tc : Thread nD τ).loc main_arg4)) := V_main_arg4 m c
  show rowOut (coef (mk m c) (w1 m c)) (coef (mk m c) (w2 m c)) (coefRow (mk m c) (w3 m c))
      (fun a => xs m c (ix2 (rowHalf n) (lane (laneHi (lane (rowPar n) b)) a))) (laneLo (lane (rowPar n) b))
    = rowOut (coef (m ((c.tc : Thread nD τ).loc main_arg4)) (m ((c.tc : Thread nD τ).loc main_arg1))) (coef (m ((c.tc : Thread nD τ).loc main_arg4)) (m ((c.tc : Thread nD τ).loc main_arg2))) (coefRow (m ((c.tc : Thread nD τ).loc main_arg4)) (m ((c.tc : Thread nD τ).loc main_arg3))) (fun a => (m ((c.tc : Thread nD τ).loc main_arg0)) (ix2 n a)) b
  rw [laneHi_lane, laneLo_lane, hx, e1, e2, e3, e4]

/-! ## The run -/

/-- Every weakly fair execution of the idealized kernel program terminates with `RowMlp.result` of the arguments in
    the result array and the arguments unchanged. -/
theorem run : θ_run defs (onTc (τ := τ) (main (F := Ideal))) ⟨m, fun _ => 0, ρ⟩ fun r => ∀ c : Dev nD,
      r.2.mem ((c.tc : Thread nD τ).loc main_v2) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v2 (Pipeline.mem_restRefs_of main_v2 (by decide) (by decide))).trans (out_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelArray

end
-- ==== Proof.RefIsResult.lean ====
/-
  The reference, read index by index, computes `RowMlp.result`.

  The reference forms each masked weight `mask * W.T` (entry `[b, a]` is `mask[b, a] * W[a, b]`; for the single-row third
  weight `W3.T` is a column broadcast along the rows, entry `[b, a]` is `mask[b, a] * W3[0, b]`), multiplies it with the
  transposed activations, and transposes back: entry `[n, b]` of a layer's output is `∑ a, C b a * h[n, a]`, which is
  `RowMlp.layer` applied to row `n`. Its `relu` is the maximum with a broadcast zero. All transposes only permute the
  two coordinates of an index.
-/
import proofs.«134851_g27573690040596_cont_9to1_2209_3_alg».proof.Proof.Gen.ReferenceIdeal.Run
import proofs.«134851_g27573690040596_cont_9to1_2209_3_alg».proof.Proof.Gen.ReferenceIdeal.Read
import proofs.«134851_g27573690040596_cont_9to1_2209_3_alg».proof.Proof.RowMlp

noncomputable section

open scoped BigOperators

namespace Cert.RefIsResult

open Cert.ReferenceIdeal Cert.ReferenceIdeal.Read Cert.RowMlp
open Idealize.ShloMosaic Idealize.ShloMosaic.ValueIdx

variable (x0 : (⟨S16384x64, .f32⟩ : BufTy).Contents (Elt Ideal)) (x1 x2 x4 : (⟨S64x64, .f32⟩ : BufTy).Contents (Elt Ideal))
  (x3 : (⟨S1x64, .f32⟩ : BufTy).Contents (Elt Ideal))

/-- The broadcast zero the reference's `relu` compares with is the extended real `0`, in both calls. -/
theorem relu_zero0 (i : S16384x64.Idx) : val_main_call0_v0 (F := Ideal) i = (0 : EReal) := by
  rw [val_main_call0_v0_apply, val_main_call0_cst_apply]
  exact Ideal.ofBits_zero_f32
theorem relu_zero1 (i : S16384x64.Idx) : val_main_call1_v0 (F := Ideal) i = (0 : EReal) := by
  rw [val_main_call1_v0_apply, val_main_call1_cst_apply]
  exact Ideal.ofBits_zero_f32

/-- The first masked weight at `[b, a]`. -/
theorem w1_apply (b a : Fin 64) : val_main_v1 (F := Ideal) x1 x4 (ix2 b a) = coef x4 x1 b a := by
  rw [val_main_v1_apply, val_main_v0_apply]
  exact congrArg (fun j => x4 (ix2 b a) * x1 j) (funext fun d => Fin.ext (by match d with | ⟨0, _⟩ => rfl | ⟨1, _⟩ => rfl))

/-- The second masked weight at `[b, a]`. -/
theorem w2_apply (b a : Fin 64) : val_main_v7 (F := Ideal) x2 x4 (ix2 b a) = coef x4 x2 b a := by
  rw [val_main_v7_apply, val_main_v6_apply]
  exact congrArg (fun j => x4 (ix2 b a) * x2 j) (funext fun d => Fin.ext (by match d with | ⟨0, _⟩ => rfl | ⟨1, _⟩ => rfl))

/-- The third masked weight at `[b, a]`: the transposed single row, broadcast along the mask's columns. -/
theorem w3_apply (b a : Fin 64) : val_main_v14 (F := Ideal) x3 x4 (ix2 b a) = coefRow x4 x3 b a := by
  rw [val_main_v14_apply, val_main_v13_apply, val_main_v12_apply]
  exact congrArg (fun j => x4 (ix2 b a) * x3 j) (funext fun d => Fin.ext (by match d with | ⟨0, _⟩ => rfl | ⟨1, _⟩ => rfl))

/-- After the first layer and its ReLU, row `n`. -/
theorem h1_apply (n : Fin 16384) (b : Fin 64) :
    val_main_v5 (F := Ideal) x0 x1 x4 (ix2 n b) = relu (layer (coef x4 x1) (fun a => x0 (ix2 n a))) b := by
  rw [val_main_v5_apply, relu_zero0, val_main_v4_apply, val_main_v3_apply]
  show max _ 0 = max _ 0
  congr 1
  refine Finset.sum_congr rfl fun k _ => ?_
  have el : lidx_main_v3 (idx_main_v4 (ix2 n b)) k = ix2 b k :=
    funext fun d => Fin.ext (by match d with | ⟨0, _⟩ => rfl | ⟨1, _⟩ => rfl)
  have er : idx_main_v2 (ridx_main_v3 (idx_main_v4 (ix2 n b)) k) = ix2 n k :=
    funext fun d => Fin.ext (by match d with | ⟨0, _⟩ => rfl | ⟨1, _⟩ => rfl)
  rw [el, w1_apply, val_main_v2_apply, er]

/-- After the second layer and its ReLU, row `n`. -/
theorem h2_apply (n : Fin 16384) (b : Fin 64) :
    val_main_v11 (F := Ideal) x0 x1 x2 x4 (ix2 n b)
      = relu (layer (coef x4 x2) (relu (layer (coef x4 x1) (fun a => x0 (ix2 n a))))) b := by
  rw [val_main_v11_apply, relu_zero1, val_main_v10_apply, val_main_v9_apply]
  show max _ 0 = max _ 0
  congr 1
  refine Finset.sum_congr rfl fun k _ => ?_
  have el : lidx_main_v9 (idx_main_v10 (ix2 n b)) k = ix2 b k :=
    funext fun d => Fin.ext (by match d with | ⟨0, _⟩ => rfl | ⟨1, _⟩ => rfl)
  have er : idx_main_v8 (ridx_main_v9 (idx_main_v10 (ix2 n b)) k) = ix2 n k :=
    funext fun d => Fin.ext (by match d with | ⟨0, _⟩ => rfl | ⟨1, _⟩ => rfl)
  rw [el, w2_apply, val_main_v8_apply, er, h1_apply]

/-- The reference's result is `RowMlp.result` of its arguments. -/
theorem ref_eq : val_main_v17 (F := Ideal) x0 x1 x2 x3 x4 = result x0 x1 x2 x3 x4 := by
  funext i
  obtain ⟨n, b, rfl⟩ : ∃ (n : Fin 16384) (b : Fin 64), i = ix2 n b := ⟨i 0, i 1, eq_ix2 i⟩
  rw [val_main_v17_apply, val_main_v16_apply]
  show _ = layer (coefRow x4 x3) _ b
  refine Finset.sum_congr rfl fun k _ => ?_
  have el : lidx_main_v16 (idx_main_v17 (ix2 n b)) k = ix2 b k :=
    funext fun d => Fin.ext (by match d with | ⟨0, _⟩ => rfl | ⟨1, _⟩ => rfl)
  have er : idx_main_v15 (ridx_main_v16 (idx_main_v17 (ix2 n b)) k) = ix2 n k :=
    funext fun d => Fin.ext (by match d with | ⟨0, _⟩ => rfl | ⟨1, _⟩ => rfl)
  rw [el, w3_apply, val_main_v15_apply, er, h2_apply]

end Cert.RefIsResult

end
-- ==== Proof.lean ====
/-
  The certificate of the fused masked three-layer perceptron against its jnp reference.

  Both programs compute, for every row `n` of `x` and every output feature `b`,
  `out[n, b] = ∑ a, C3 b a * relu (∑ a', C2 a a' * relu (∑ a'', C1 a' a'' * x[n, a'']))` with
  `C1 b a = mask[b, a] * W1[a, b]`, `C2 b a = mask[b, a] * W2[a, b]`, `C3 b a = mask[b, a] * W3[0, b]` (`RowMlp.result`).
  The reference does so through transposes and three `dot_general`s (`RefIsResult.ref_eq`). The kernel views `x` as
  [8192, 128], two rows side by side, and multiplies by block-diagonal matrices `diag(D, D)`; the off-diagonal zeros
  contribute `z * 0 = 0` to every sum, which holds for every extended real `z`, so the equality needs no finiteness
  of the inputs and no reordering beyond commutativity of the product (`KernelArray.run`).

  The two kernel frames are the generated ones; the reference's frame is its generated run with the result dropped;
  the idealization rewrote no operation, so `preserves` is `True`.
-/
import proofs.«134851_g27573690040596_cont_9to1_2209_3_alg».proof.Defs
import proofs.«134851_g27573690040596_cont_9to1_2209_3_alg».proof.Proof.Gen.Kernel
import proofs.«134851_g27573690040596_cont_9to1_2209_3_alg».proof.Proof.Gen.Kernel.Skeleton
import proofs.«134851_g27573690040596_cont_9to1_2209_3_alg».proof.Proof.Gen.Kernel.Launch
import proofs.«134851_g27573690040596_cont_9to1_2209_3_alg».proof.Proof.Gen.Kernel.Points
import proofs.«134851_g27573690040596_cont_9to1_2209_3_alg».proof.Proof.Gen.Kernel.Frame
import proofs.«134851_g27573690040596_cont_9to1_2209_3_alg».proof.Proof.Gen.KernelIdeal
import proofs.«134851_g27573690040596_cont_9to1_2209_3_alg».proof.Proof.Gen.KernelIdeal.Skeleton
import proofs.«134851_g27573690040596_cont_9to1_2209_3_alg».proof.Proof.Gen.KernelIdeal.Launch
import proofs.«134851_g27573690040596_cont_9to1_2209_3_alg».proof.Proof.Gen.KernelIdeal.Points
import proofs.«134851_g27573690040596_cont_9to1_2209_3_alg».proof.Proof.Gen.KernelIdeal.Frame
import proofs.«134851_g27573690040596_cont_9to1_2209_3_alg».proof.Proof.Gen.ReferenceIdeal
import proofs.«134851_g27573690040596_cont_9to1_2209_3_alg».proof.Proof.Gen.ReferenceIdeal.Run
import proofs.«134851_g27573690040596_cont_9to1_2209_3_alg».proof.Proof.Gen.ReferenceIdeal.Read
import proofs.«134851_g27573690040596_cont_9to1_2209_3_alg».proof.Proof.Gen.Pre_finite_inputs
import proofs.«134851_g27573690040596_cont_9to1_2209_3_alg».proof.Proof.KernelArray
import proofs.«134851_g27573690040596_cont_9to1_2209_3_alg».proof.Proof.RefIsResult
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with `RowMlp.result` of the arguments in their result arrays. -/
theorem algebraic : Cert.algebraic_KernelIdeal_ReferenceIdeal := by
  intro m ρ m' ρ' _ hagree
  refine ⟨fun c => Cert.RowMlp.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.RefIsResult.ref_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
